-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4x2048x2048 .f32) (main_arg1 : FVec F S2048x2048 .f32) (main_arg2 : FVec F S2048x2048 .f32) (main_arg3 : FVec F S2048 .f32) (main_arg4 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Kernel.lean ====
abbrev S4x2048x2048 : Shape := ⟨3, ![4, 2048, 2048]⟩
abbrev S2048x2048 : Shape := ⟨2, ![2048, 2048]⟩
abbrev S2048 : Shape := ⟨1, ![2048]⟩
abbrev S8192x2048 : Shape := ⟨2, ![8192, 2048]⟩
abbrev S1x2048 : Shape := ⟨2, ![1, 2048]⟩
abbrev S512x2048 : Shape := ⟨2, ![512, 2048]⟩
abbrev S256x2048 : Shape := ⟨2, ![256, 2048]⟩
abbrev S1x256 : Shape := ⟨2, ![1, 256]⟩
abbrev S512x256 : Shape := ⟨2, ![512, 256]⟩
abbrev S512 : Shape := ⟨1, ![512]⟩
abbrev S512x1 : Shape := ⟨2, ![512, 1]⟩
abbrev S256 : Shape := ⟨1, ![256]⟩
abbrev S256x1 : Shape := ⟨2, ![256, 1]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x2048x2048_S8192x2048 : S4x2048x2048.ShapeCasts S8192x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S256x2048_S256x2048_0_0 : ∀ a, (![0, 0] : Fin 2 → Nat) a + S256x2048.size a ≤ S256x2048.size a
  h_S256x2048 : 0 < S256x2048.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  bitsLt_bf16_f32 : FTy.bits .bf16 < FTy.bits .f32
  broadcasts_S1x256_S512x256 : S1x256.Broadcasts S512x256
  reduces_S512x2048_S512 : S512x2048.Reduces [1] S512
  shapeCasts_S512_S512x1 : S512.ShapeCasts S512x1
  reduces_S256x2048_S256 : S256x2048.Reduces [1] S256
  shapeCasts_S256_S256x1 : S256.ShapeCasts S256x1
  transposes_S256x1_p1_0_S1x256 : S256x1.Transposes [1, 0] S1x256
  broadcasts_S512x1_S512x256 : S512x1.Broadcasts S512x256
  inb_S512x256_S512x256_0_0 : ∀ a, (![0, 0] : Fin 2 → Nat) a + S512x256.size a ≤ S512x256.size a
  h_S512x256 : 0 < S512x256.numel
  shapeCasts_S8192x2048_S4x2048x2048 : S8192x2048.ShapeCasts S4x2048x2048
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .f32 = 32 ∨ (Rect.block (s := S2048x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x2048.size a
  hwx0_3 : ∀ i : grid0.Coords, EltTy.bits .f32 = 32 ∨ (Rect.block (s := S1x2048) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x2048.size a
  hwx0_4 : ∀ i : grid0.Coords, EltTy.bits .f32 = 32 ∨ (Rect.block (s := S1x2048) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S8192x2048.size a
  hwx0_5 : ∀ i : grid0.Coords, EltTy.bits .f32 = 32 ∨ (Rect.block (s := S8192x2048) S512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S8192x2048.size a
  hwx0_6 : ∀ i : grid0.Coords, EltTy.bits .f32 = 32 ∨ (Rect.block (s := S8192x2048) S512x256.size (cc0_transform_6 i) (hinb0_6 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S512x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .i1⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S8192x1, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_v4 : Ref sig .tc := ⟨.hbm, 25, rfl⟩
abbrev main_call2_v0 : Ref sig .tc := ⟨.hbm, 26, rfl⟩
abbrev main_call2_cst : Ref sig .tc := ⟨.hbm, 27, rfl⟩
abbrev main_call2_v1 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_call3_cst : Ref sig .tc := ⟨.hbm, 42, rfl⟩
abbrev main_call3_v0 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩

abbrev nD : Nat := 1
abbrev τ : Topo := Topo.v7x

variable {F : FTy → Type} [FloatOps F]

class Facts₀ : Prop where
  shapeCasts_S4x2048x2048_S8192x2048 : S4x2048x2048.ShapeCasts S8192x2048
  bcast_S_S2048x2048 : S_.BroadcastsInDim S2048x2048 (![] : Fin 0 → Fin S2048x2048.rank)
  reducesTo_S8192x2048_S8192_d1 : S8192x2048.ReducesTo [1] S8192
  h_S_ : 0 < S_.numel
  reducesTo_S2048x2048_S2048_d1 : S2048x2048.ReducesTo [1] S2048
  bcast_S8192_S8192x1_0 : S8192.BroadcastsInDim S8192x1 (![0] : Fin 1 → Fin S8192x1.rank)
  bcast_S2048_S1x2048_1 : S2048.BroadcastsInDim S1x2048 (![1] : Fin 1 → Fin S1x2048.rank)
  bcast_S8192x1_S8192x2048_0_1 : S8192x1.BroadcastsInDim S8192x2048 (![0, 1] : Fin 2 → Fin S8192x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  shapeCasts_S8192x2048_S4x2048x2048 : S8192x2048.ShapeCasts S4x2048x2048
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.Spec.lean ====
/-
  The function both programs compute, on extended reals.

  For a row x of the flattened input (2048 entries), a row μ of the weight means and a row σ of the weight spreads:
  • softplus s = max s 0 + log1p (exp (−|s|)), with |s| written max s (−s);
  • the key row is κ_k = μ_k · softplus σ_k;
  • the cosine score is (Σ_k x_k κ_k) / max (√(Σ_k x_k²) · √(Σ_k κ_k²)) ε, ε the shared single-precision literal;
  • the gated product is (Σ_k x_k μ_k + b) · max (score − g) 0, with b the bias and g the gate of that output column.
  The two result arrays read these at (row r of X, row n of MU and SG).
-/
import Idealize.ShloMosaic.Lib.ValueIdx
import Idealize.ShloMosaic.PureOps.Ideal.Laws

noncomputable section

namespace Cert.Gating

open Idealize.ShloMosaic Idealize.ShloMosaic.ValueIdx
open scoped BigOperators

/-- The floor under the product of the two norms: the literal both programs carry. -/
abbrev normFloor : EReal := Ideal.ofBits .f32 0x322BCC77#32

/-- softplus, in the stable form both programs use. -/
def softplus (s : EReal) : EReal := max s 0 + Ideal.log1p (Ideal.exp (-(max s (-s))))

/-- The key row: the mean row scaled entry by entry by softplus of the spread row. -/
def keyRow (mu sg : Fin 2048 → EReal) : Fin 2048 → EReal := fun k => mu k * softplus (sg k)

/-- The cosine score of an input row against a key row. -/
def score (xr kr : Fin 2048 → EReal) : EReal :=
  Ideal.div (∑ k, xr k * kr k) (max (Ideal.sqrt (∑ k, xr k * xr k) * Ideal.sqrt (∑ k, kr k * kr k)) normFloor)

/-- The linear projection of the input row, shifted by the bias, times the score's excess over the gate, clipped at zero. -/
def gated (xr mu sg : Fin 2048 → EReal) (g b : EReal) : EReal :=
  (∑ k, xr k * mu k + b) * max (score xr (keyRow mu sg) - g) 0

/-- Row r of a matrix with 2048 columns. -/
abbrev row {a : ℕ} (X : (⟨2, ![a, 2048]⟩ : Shape).Idx → EReal) (r : Fin a) : Fin 2048 → EReal := fun k => X (ix2 r k)

/-- The score array: entry (r, n) scores input row r against key row n. -/
def scoresOf (X : (⟨2, ![8192, 2048]⟩ : Shape).Idx → EReal) (MU SG : (⟨2, ![2048, 2048]⟩ : Shape).Idx → EReal) :
    (⟨2, ![8192, 2048]⟩ : Shape).Idx → EReal :=
  fun i => score (row X (i 0)) (keyRow (row MU (i 1)) (row SG (i 1)))

/-- The gated array: entry (r, n) is the gated product of input row r with weight row n, gate g n and bias b n. -/
def gatedOf (X : (⟨2, ![8192, 2048]⟩ : Shape).Idx → EReal) (MU SG : (⟨2, ![2048, 2048]⟩ : Shape).Idx → EReal)
    (g b : Fin 2048 → EReal) : (⟨2, ![8192, 2048]⟩ : Shape).Idx → EReal :=
  fun i => gated (row X (i 0)) (row MU (i 1)) (row SG (i 1)) (g (i 1)) (b (i 1))

theorem scoresOf_ix2 (X : (⟨2, ![8192, 2048]⟩ : Shape).Idx → EReal) (MU SG : (⟨2, ![2048, 2048]⟩ : Shape).Idx → EReal)
    (r : Fin 8192) (n : Fin 2048) :
    scoresOf X MU SG (ix2 r n) = score (row X r) (keyRow (row MU n) (row SG n)) := rfl

theorem gatedOf_ix2 (X : (⟨2, ![8192, 2048]⟩ : Shape).Idx → EReal) (MU SG : (⟨2, ![2048, 2048]⟩ : Shape).Idx → EReal)
    (g b : Fin 2048 → EReal) (r : Fin 8192) (n : Fin 2048) :
    gatedOf X MU SG g b (ix2 r n) = gated (row X r) (row MU n) (row SG n) (g n) (b n) := rfl

/-! ## The two printed spellings of softplus

Both programs guard the stable form by a test "d ≠ d" on d = s − 0 that can only fire on a NaN; no extended real differs
from itself, so the guarded branch is never taken. One program negates |d|, the other subtracts it from zero. -/

/-- The test "d ≠ d" is false on the extended reals, ordered or unordered. -/
theorem cmp_one_self (d : EReal) : Ideal.cmp .one d d = 0#1 := by
  simp [Ideal.cmp]
theorem cmp_une_self (d : EReal) : Ideal.cmp .une d d = 0#1 := by
  simp [Ideal.cmp]

/-- The spelling with "0 − |d|". -/
theorem softplus_sub (s : EReal) :
    Scalar.select (Ideal.cmp .one (s - 0) (s - 0)) (s + 0)
      (max s 0 + Ideal.log1p (Ideal.exp (0 - max (s - 0) (-(s - 0))))) = softplus s := by
  rw [cmp_one_self, select_zero, sub_zero, zero_sub]; rfl

/-- The spelling with "−|d|". -/
theorem softplus_neg (s : EReal) :
    Scalar.select (Ideal.cmp .une (s - 0) (s - 0)) (s + 0)
      (max s 0 + Ideal.log1p (Ideal.exp (-(max (s - 0) (-(s - 0)))))) = softplus s := by
  rw [cmp_une_self, select_zero, sub_zero]; rfl

end Cert.Gating

end
-- ==== Proof.LibRowOps.lean ====
/-
  Rows of a matrix, read at an index given by coordinates.

  A row-wise normalisation (a softmax, a layer norm) reduces each row of an [a, b] matrix to one number, keeps it as
  a column [a, 1], and broadcasts the column back over the row. Read at (p, c) each of these steps looks at one
  element of its operand, or at the b elements of row p:
  • the views [a, b] ↔ [a, 1, b] and [a] → [a, 1] move no element (the row-major position is unchanged because the
    inserted axis has extent one);
  • a column [a, 1] broadcast to [a, b] reads, at (p, c), the column's entry p;
  • a reduction over axis 1 reads, at p, the b entries (p, 0) … (p, b − 1): their sum, or their maximum folded from the
    initial value.
  The second part is the order fact a row maximum needs: folding max from an initial value gives a result at
  least that value, so taking the maximum with the initial value once more changes nothing.
-/
import Idealize.ShloMosaic.Lib.ValueLayout
import Idealize.ShloMosaic.Lib.ValueIdx
import Idealize.ShloMosaic.PureOps.Ideal.Laws

noncomputable section

namespace RowOps

open Idealize.ShloMosaic Idealize.ShloMosaic.ValueIdx

variable {α : Type}

/-! ## Views that insert or drop a unit axis in the middle or at the end -/

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array viewed as `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A column broadcast over its rows -/

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The sum along a row, at the ideal values: entry `p` is the sum of the row's `b` entries. -/
theorem multiReduction_add_row {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- The maximum along a row, at the ideal values: entry `p` is `max` folded from the accumulator's value over the
    row's `b` entries. -/
theorem multiReduction_max_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (Finset.univ.fold max _) (funext fun k => congrArg v (lift_row h p k))

/-- The host's one-operand reduction with a `max` body along a row: the same fold, from the initial value's element. -/
theorem hostReduce_max_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf v init h' hu (ix1 p)
      = (Finset.univ : Finset (Fin b)).fold max (init (Shape.Idx.first hu)) (fun k => v (ix2 p k)) := by
  rw [Host.reduce_eq_fold_single FloatOps.maximumf v init h' h hu]
  exact congrArg (Finset.univ.fold max _) (funext fun k => congrArg v (lift_row h p k))

/-! ## The maximum with the initial value, once more -/

/-- A fold of `max` from `c` is at least `c`, so its maximum with `c` is the fold itself. -/
theorem max_fold_max_self {ι β : Type*} [LinearOrder β] (s : Finset ι) (c : β) (f : ι → β) :
    max c (s.fold max c f) = s.fold max c f :=
  max_eq_right ((Finset.le_fold_max c).mpr (Or.inl le_rfl))

end RowOps

end
-- ==== Proof.BlockValue.lean ====
/-
  What the kernel body leaves in its two output blocks, read at an entry (p, q) of the 512 × 256 block.

  The body holds a 512-row block of the input, a 256-row block of the weight means and of the weight spreads, and a
  256-entry piece of the gate and of the bias. Entry (p, q) of the score block is the cosine score of input row p
  against key row q; entry (p, q) of the gated block is the gated product of those rows with gate entry q and bias
  entry q. The row sums are lane sums along the 2048-axis; the two matrix products contract that axis of both
  operands; the narrowing to bf16 before the products is the identity on extended reals.
-/
import proofs.«151438_j26817775796689_1_alg».proof.Proof.Gen.KernelIdeal.Frame
import proofs.«151438_j26817775796689_1_alg».proof.Proof.Spec
import proofs.«151438_j26817775796689_1_alg».proof.Proof.LibRowOps
import Idealize.ShloMosaic.Lib.ValueLayout
import Idealize.ShloMosaic.Lib.ValueIdx
import Idealize.ShloMosaic.Lib.Pipeline.Value
import Idealize.ShloMosaic.PureOps.Ideal.Laws

noncomputable section

namespace Cert.Gating.Block

open Cert.KernelIdeal Cert.KernelIdeal.Gen Idealize.ShloMosaic Idealize.ShloMosaic.ValueIdx Cert.Gating
open scoped BigOperators

/-! ## The key block -/

/-- The key block is the mean block times softplus of the spread block, entry by entry. -/
theorem keys_apply (v2 v3 : Vec Ideal S256x2048 .f32) (i : S256x2048.Idx) :
    k0_pay5 (F := Ideal) v2 v3 i = v2 i * softplus (v3 i) := by
  simp only [k0_pay5, mulf, select, cmpf, subf, addf, maximumf, absf, exp, log1p, broadcast, Scalar.ofBits,
    Ideal.ofBits_def, Ideal.ofBits_zero_f32, Ideal.subf_def, Ideal.addf_def, Ideal.maximumf_def, Ideal.mulf_def,
    Ideal.log1p_def, Ideal.exp_def, Ideal.absf_def, Ideal.cmpf_def]
  rw [softplus_sub]

/-! ## A product of a 512-row block with a 256-row block along their shared 2048-axis -/

theorem lhs_axis0 (i : S512x256.Idx) (q : dot_S512x2048_S256x2048_S512x256_1_1_0_0_n_n.contr.Idx) :
    (dot_S512x2048_S256x2048_S512x256_1_1_0_0_n_n.lhsIdx i q 0).val = (i 0).val := by
  unfold DotDims.lhsIdx
  rw [dif_neg (show ¬(0 : Fin S512x2048.rank) ∈ dot_S512x2048_S256x2048_S512x256_1_1_0_0_n_n.lhsBatch by decide),
    dif_pos (show (0 : Fin S512x2048.rank) ∈ dot_S512x2048_S256x2048_S512x256_1_1_0_0_n_n.lhsNonContracting by decide)]
  rfl
theorem lhs_axis1 (i : S512x256.Idx) (q : dot_S512x2048_S256x2048_S512x256_1_1_0_0_n_n.contr.Idx) :
    (dot_S512x2048_S256x2048_S512x256_1_1_0_0_n_n.lhsIdx i q 1).val = (q ⟨0, by decide⟩).val :=
  dot_S512x2048_S256x2048_S512x256_1_1_0_0_n_n.lhsIdx_val_of_single rfl i q
theorem rhs_axis0 (i : S512x256.Idx) (q : dot_S512x2048_S256x2048_S512x256_1_1_0_0_n_n.contr.Idx) :
    (dot_S512x2048_S256x2048_S512x256_1_1_0_0_n_n.rhsIdx i q 0).val = (i 1).val := by
  unfold DotDims.rhsIdx
  rw [dif_neg (show ¬(0 : Fin S256x2048.rank) ∈ dot_S512x2048_S256x2048_S512x256_1_1_0_0_n_n.rhsBatch by decide),
    dif_pos (show (0 : Fin S256x2048.rank) ∈ dot_S512x2048_S256x2048_S512x256_1_1_0_0_n_n.rhsNonContracting by decide)]
  rfl
theorem rhs_axis1 (i : S512x256.Idx) (q : dot_S512x2048_S256x2048_S512x256_1_1_0_0_n_n.contr.Idx) :
    (dot_S512x2048_S256x2048_S512x256_1_1_0_0_n_n.rhsIdx i q 1).val = (q ⟨0, by decide⟩).val :=
  dot_S512x2048_S256x2048_S512x256_1_1_0_0_n_n.rhsIdx_val_of_single rfl i q

/-- Into a zero accumulator the product's entry (p, q) is the sum over k of row p of the left block times row q of
    the right block. -/
theorem product_apply {φ₁ φ₂ : FTy} (l : FVec Ideal S512x2048 φ₁) (r : FVec Ideal S256x2048 φ₂) (p : Fin 512) (q : Fin 256) :
    matmul dot_S512x2048_S256x2048_S512x256_1_1_0_0_n_n none l r (constant S512x256 .f32 0x00000000#32) (ix2 p q)
      = ∑ k : Fin 2048, l (ix2 p k) * r (ix2 q k) := by
  simp only [matmul]
  rw [Ideal.matmul_constant_zero_apply,
    ← Equiv.sum_comp (contrEquiv1 dot_S512x2048_S256x2048_S512x256_1_1_0_0_n_n 2048 rfl rfl).symm]
  refine Finset.sum_congr rfl fun k _ => ?_
  have hk := contrEquiv1_symm_val dot_S512x2048_S256x2048_S512x256_1_1_0_0_n_n 2048 rfl rfl k
  have el : dot_S512x2048_S256x2048_S512x256_1_1_0_0_n_n.lhsIdx (ix2 p q)
      ((contrEquiv1 dot_S512x2048_S256x2048_S512x256_1_1_0_0_n_n 2048 rfl rfl).symm k) = ix2 p k :=
    funext fun a => Fin.ext (by
      match a with
      | ⟨0, _⟩ => exact lhs_axis0 _ _
      | ⟨1, _⟩ => exact (lhs_axis1 _ _).trans hk)
  have er : dot_S512x2048_S256x2048_S512x256_1_1_0_0_n_n.rhsIdx (ix2 p q)
      ((contrEquiv1 dot_S512x2048_S256x2048_S512x256_1_1_0_0_n_n 2048 rfl rfl).symm k) = ix2 q k :=
    funext fun a => Fin.ext (by
      match a with
      | ⟨0, _⟩ => exact rhs_axis0 _ _
      | ⟨1, _⟩ => exact (rhs_axis1 _ _).trans hk)
  rw [el, er]

/-! ## The payloads at (p, q) -/

variable (v0 : Vec Ideal S512x2048 .f32) (v2 v3 : Vec Ideal S256x2048 .f32) (v4 v6 : Vec Ideal S1x256 .f32)

/-- The score's numerator: input row p against key row q. -/
theorem dots_apply (p : Fin 512) (q : Fin 256) :
    k0_pay7 (F := Ideal) v0 v2 v3 (ix2 p q) = ∑ k, row v0 p k * keyRow (row v2 q) (row v3 q) k := by
  unfold k0_pay7
  refine (product_apply _ _ p q).trans (Finset.sum_congr rfl fun k _ => ?_)
  show k0_pay3 v0 (ix2 p k) * k0_pay5 v2 v3 (ix2 q k) = _
  rw [keys_apply]
  unfold k0_pay3
  rw [shapeCast_self]
  rfl

/-- The linear projection: input row p against mean row q, plus bias entry q. -/
theorem proj_apply (p : Fin 512) (q : Fin 256) :
    k0_pay8 (F := Ideal) v0 v2 v6 (ix2 p q) = (∑ k, row v0 p k * row v2 q k) + v6 (ix2 (0 : Fin 1) q) := by
  unfold k0_pay8
  show matmul dot_S512x2048_S256x2048_S512x256_1_1_0_0_n_n none (k0_pay6 v0) (truncf .bf16 v2 bitsLt_bf16_f32)
      (constant S512x256 .f32 0x00000000#32) (ix2 p q)
    + broadcastTo S512x256 (shapeCast S1x256 v6 shapeCasts_S1x256_S1x256) broadcasts_S1x256_S512x256 (ix2 p q) = _
  rw [product_apply, broadcastTo_1b_ab_apply, shapeCast_self]
  refine congrArg (· + _) (Finset.sum_congr rfl fun k _ => ?_)
  show k0_pay3 v0 (ix2 p k) * v2 (ix2 q k) = _
  unfold k0_pay3
  rw [shapeCast_self]

/-- The product of the two norms: of input row p and of key row q. -/
theorem norms_apply (p : Fin 512) (q : Fin 256) :
    k0_pay9 (F := Ideal) v0 v2 v3 (ix2 p q)
      = Ideal.sqrt (∑ k, row v0 p k * row v0 p k)
        * Ideal.sqrt (∑ k, keyRow (row v2 q) (row v3 q) k * keyRow (row v2 q) (row v3 q) k) := by
  unfold k0_pay9
  show broadcastTo S512x256 (sqrt (shapeCast S512x1 (multiReduction .add [1] S512 (mulf (k0_pay3 v0) (k0_pay3 v0)) 0x00000000#32 reduces_S512x2048_S512 (.inl rfl) rfl) shapeCasts_S512_S512x1)) broadcasts_S512x1_S512x256 (ix2 p q)
    * broadcastTo S512x256 (transpose S1x256 [1, 0] (sqrt (shapeCast S256x1 (multiReduction .add [1] S256 (mulf (k0_pay5 v2 v3) (k0_pay5 v2 v3)) 0x00000000#32 reduces_S256x2048_S256 (.inl rfl) rfl) shapeCasts_S256_S256x1)) transposes_S256x1_p1_0_S1x256) broadcasts_S1x256_S512x256 (ix2 p q) = _
  rw [RowOps.broadcastTo_a1_ab_apply, broadcastTo_1b_ab_apply, transpose_ix2_apply]
  show Ideal.sqrt (shapeCast S512x1 _ shapeCasts_S512_S512x1 (ix2 p (0 : Fin 1)))
    * Ideal.sqrt (shapeCast S256x1 _ shapeCasts_S256_S256x1 (ix2 q (0 : Fin 1))) = _
  rw [RowOps.shapeCast_a_a1_apply, RowOps.shapeCast_a_a1_apply]
  have hx : multiReduction .add [1] S512 (mulf (k0_pay3 (F := Ideal) v0) (k0_pay3 v0)) 0x00000000#32
      reduces_S512x2048_S512 (.inl rfl) rfl (ix1 p) = ∑ k, row v0 p k * row v0 p k :=
    (RowOps.multiReduction_add_row (mulf (k0_pay3 (F := Ideal) v0) (k0_pay3 v0)) 0x00000000#32
      reduces_S512x2048_S512 (.inl rfl) rfl p).trans
      (Finset.sum_congr rfl fun k _ => by
        show k0_pay3 v0 (ix2 p k) * k0_pay3 v0 (ix2 p k) = _
        unfold k0_pay3
        rw [shapeCast_self])
  have hk : multiReduction .add [1] S256 (mulf (k0_pay5 (F := Ideal) v2 v3) (k0_pay5 v2 v3)) 0x00000000#32
      reduces_S256x2048_S256 (.inl rfl) rfl (ix1 q)
      = ∑ k, keyRow (row v2 q) (row v3 q) k * keyRow (row v2 q) (row v3 q) k :=
    (RowOps.multiReduction_add_row (mulf (k0_pay5 (F := Ideal) v2 v3) (k0_pay5 v2 v3)) 0x00000000#32
      reduces_S256x2048_S256 (.inl rfl) rfl q).trans
      (Finset.sum_congr rfl fun k _ => by
        show k0_pay5 v2 v3 (ix2 q k) * k0_pay5 v2 v3 (ix2 q k) = _
        rw [keys_apply]
        rfl)
  exact congrArg₂ (fun a b => Ideal.sqrt a * Ideal.sqrt b) hx hk

/-- The score block at (p, q). -/
theorem score_apply (p : Fin 512) (q : Fin 256) :
    k0_pay1 (F := Ideal) (k0_pay7 v0 v2 v3) (k0_pay9 v0 v2 v3) (ix2 p q)
      = score (row v0 p) (keyRow (row v2 q) (row v3 q)) := by
  unfold k0_pay1
  show Ideal.div (k0_pay7 v0 v2 v3 (ix2 p q)) (max (k0_pay9 v0 v2 v3 (ix2 p q)) (Ideal.ofBits .f32 0x322BCC77#32)) = _
  rw [dots_apply, norms_apply]
  rfl

/-- The gated block at (p, q). -/
theorem gated_apply (p : Fin 512) (q : Fin 256) :
    k0_pay2 (F := Ideal) (k0_pay4 v4) (k0_pay7 v0 v2 v3) (k0_pay8 v0 v2 v6) (k0_pay9 v0 v2 v3) (ix2 p q)
      = gated (row v0 p) (row v2 q) (row v3 q) (v4 (ix2 (0 : Fin 1) q)) (v6 (ix2 (0 : Fin 1) q)) := by
  unfold k0_pay2
  show k0_pay8 v0 v2 v6 (ix2 p q)
    * max (k0_pay1 (k0_pay7 v0 v2 v3) (k0_pay9 v0 v2 v3) (ix2 p q)
        - broadcastTo S512x256 (k0_pay4 v4) broadcasts_S1x256_S512x256 (ix2 p q)) (Ideal.ofBits .f32 0x00000000#32) = _
  rw [proj_apply, score_apply, broadcastTo_1b_ab_apply, Ideal.ofBits_zero_f32]
  unfold k0_pay4
  rw [shapeCast_self]
  rfl

end Cert.Gating.Block

end
-- ==== Proof.Arrays.lean ====
/-
  From blocks to arrays.

  The grid has 16 × 8 points. At point (i, j) the body reads rows 512 i … 512 i + 511 of the flattened input, rows
  256 j … 256 j + 255 of the two weight arrays, entries 256 j … 256 j + 255 of the gate and of the bias (each a
  one-row matrix), and writes block (i, j) — 512 × 256 — of each output. Entry (p, q) of that block is entry
  (512 i + p, 256 j + q) of the output, and it is the score (or the gated product) of input row 512 i + p with weight row
  256 j + q: what one whole-array function gives there. The 128 blocks tile the 8192 × 2048 outputs, so each output array
  ends as that function.
-/
import proofs.«151438_j26817775796689_1_alg».proof.Proof.Gen.KernelIdeal.Frame
import proofs.«151438_j26817775796689_1_alg».proof.Proof.BlockValue

set_option maxRecDepth 16384

noncomputable section

namespace Cert.Gating.Arrays

open Cert.KernelIdeal Cert.KernelIdeal.Gen Idealize.ShloMosaic Idealize.ShloMosaic.TcCoe Idealize.ShloMosaic.ValueIdx
open Idealize.SL.Sem Cert.Gating Cert.Gating.Block
open Idealize.ShloMosaic.Pipeline (Dat)
open scoped BigOperators

variable (m : (ℓ : Loc nD τ sig) → Buf (Elt Ideal) ℓ)

theorem zeros : (![0, 0] : Fin 2 → Nat) = fun _ => 0 := funext fun a => by fin_cases a <;> rfl

/-! ## The output blocks as the body leaves them, at (p, q) -/

theorem scoreBlock_apply (x0 : Vec Ideal S512x2048 .f32) (x1 x2 : Vec Ideal S256x2048 .f32) (x3 x4 : Vec Ideal S1x256 .f32)
    (p : Fin 512) (q : Fin 256) :
    out0_6 (F := Ideal) x0 x1 x2 x3 x4 (ix2 p q) = score (row x0 p) (keyRow (row x1 q) (row x2 q)) := by
  unfold out0_6
  rw [View.canon_unit_zero zeros]
  simp only [View.ld_unit_zero (S := S512x2048) zeros, View.ld_unit_zero (S := S256x2048) zeros]
  exact score_apply x0 x1 x2 p q

theorem gatedBlock_apply (x0 : Vec Ideal S512x2048 .f32) (x1 x2 : Vec Ideal S256x2048 .f32) (x3 x4 : Vec Ideal S1x256 .f32)
    (p : Fin 512) (q : Fin 256) :
    out0_5 (F := Ideal) x0 x1 x2 x3 x4 (ix2 p q)
      = gated (row x0 p) (row x1 q) (row x2 q) (x3 (ix2 (0 : Fin 1) q)) (x4 (ix2 (0 : Fin 1) q)) := by
  unfold out0_5
  rw [View.canon_unit_zero zeros]
  simp only [View.ld_unit_zero (S := S512x2048) zeros, View.ld_unit_zero (S := S256x2048) zeros,
    View.ld_unit_zero (S := S1x256) zeros]
  exact gated_apply x0 x1 x2 x3 x4 p q

/-! ## The index maps over the grid -/

/-- Where each window's block sits at point t, relative to the first output's block (i, j): the input block at (i, 0),
    the weight blocks at (j, 0), the gate and bias pieces at (0, j), the second output at (i, j); i < 16, j < 8. -/
theorem blockIndex : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_6.index t (0 : Fin 2) = win0_5.index t (0 : Fin 2) ∧ win0_6.index t (1 : Fin 2) = win0_5.index t (1 : Fin 2)
    ∧ win0_5.index t (0 : Fin 2) ≤ 15 ∧ win0_5.index t (1 : Fin 2) ≤ 7 :=
  (by decide +kernel : ∀ t : Fin grid0.N, _)

/-- Every block (i, j) of the outputs is some point's. -/
theorem blockOnto : ∀ (q0 : Fin 16) (q1 : Fin 8), ∃ t : Fin cfg0.N, win0_5.index t = ![q0.val, q1.val] :=
  (by decide +kernel : ∀ (q0 : Fin 16) (q1 : Fin 8), ∃ t : Fin grid0.N, win0_5.index t = ![q0.val, q1.val])

/-! ## The arrays as the region finds them, and the blocks read off them -/

abbrev inputArr (c : Dev nD) : Vec Ideal S8192x2048 .f32 := V m c main_v0
abbrev meanArr (c : Dev nD) : Vec Ideal S2048x2048 .f32 := V m c main_arg1
abbrev spreadArr (c : Dev nD) : Vec Ideal S2048x2048 .f32 := V m c main_arg2
abbrev gateArr (c : Dev nD) : Vec Ideal S1x2048 .f32 := V m c main_v1
abbrev biasArr (c : Dev nD) : Vec Ideal S1x2048 .f32 := V m c main_v2

abbrev inputBlk (c : Dev nD) (t : Fin cfg0.N) : Vec Ideal S512x2048 .f32 := iblk m c 0 t
abbrev meanBlk (c : Dev nD) (t : Fin cfg0.N) : Vec Ideal S256x2048 .f32 := iblk m c 1 t
abbrev spreadBlk (c : Dev nD) (t : Fin cfg0.N) : Vec Ideal S256x2048 .f32 := iblk m c 2 t
abbrev gateBlk (c : Dev nD) (t : Fin cfg0.N) : Vec Ideal S1x256 .f32 := iblk m c 3 t
abbrev biasBlk (c : Dev nD) (t : Fin cfg0.N) : Vec Ideal S1x256 .f32 := iblk m c 4 t

/-- The row of the output that entry p of block row i is. -/
abbrev outRow (t : Fin cfg0.N) (p : Fin 512) : Fin 8192 :=
  ⟨win0_5.index t (0 : Fin 2) * 512 + p.val, by have := (blockIndex t).2.2.2.2.2.2.2.2.2.2.2.2.1; have := p.isLt; omega⟩
/-- The column of the output that entry q of block column j is. -/
abbrev outCol (t : Fin cfg0.N) (q : Fin 256) : Fin 2048 :=
  ⟨win0_5.index t (1 : Fin 2) * 256 + q.val, by have := (blockIndex t).2.2.2.2.2.2.2.2.2.2.2.2.2; have := q.isLt; omega⟩

/-- Row p of the input block is row 512 i + p of the input. -/
theorem inputBlk_row (c : Dev nD) (t : Fin cfg0.N) (p : Fin 512) :
    row (inputBlk m c t) p = row (inputArr m c) (outRow t p) := by
  obtain ⟨e00, e01, -⟩ := blockIndex t
  funext k
  show V m c main_v0 (((cfg0.win 0).blk t).view.emb (ix2 p k)) = V m c main_v0 (ix2 (outRow t p) k)
  refine congrArg (V m c main_v0) (funext fun a => Fin.ext ?_)
  match a with
  | ⟨0, _⟩ => show win0_0.index t (0 : Fin 2) * 512 + 1 * p.val = win0_5.index t (0 : Fin 2) * 512 + p.val; omega
  | ⟨1, _⟩ => show win0_0.index t (1 : Fin 2) * 2048 + 1 * k.val = k.val; omega

/-- Row q of the mean block is row 256 j + q of the means. -/
theorem meanBlk_row (c : Dev nD) (t : Fin cfg0.N) (q : Fin 256) :
    row (meanBlk m c t) q = row (meanArr m c) (outCol t q) := by
  obtain ⟨-, -, e10, e11, -⟩ := blockIndex t
  funext k
  show V m c main_arg1 (((cfg0.win 1).blk t).view.emb (ix2 q k)) = V m c main_arg1 (ix2 (outCol t q) k)
  refine congrArg (V m c main_arg1) (funext fun a => Fin.ext ?_)
  match a with
  | ⟨0, _⟩ => show win0_1.index t (0 : Fin 2) * 256 + 1 * q.val = win0_5.index t (1 : Fin 2) * 256 + q.val; omega
  | ⟨1, _⟩ => show win0_1.index t (1 : Fin 2) * 2048 + 1 * k.val = k.val; omega

/-- Row q of the spread block is row 256 j + q of the spreads. -/
theorem spreadBlk_row (c : Dev nD) (t : Fin cfg0.N) (q : Fin 256) :
    row (spreadBlk m c t) q = row (spreadArr m c) (outCol t q) := by
  obtain ⟨-, -, -, -, e20, e21, -⟩ := blockIndex t
  funext k
  show V m c main_arg2 (((cfg0.win 2).blk t).view.emb (ix2 q k)) = V m c main_arg2 (ix2 (outCol t q) k)
  refine congrArg (V m c main_arg2) (funext fun a => Fin.ext ?_)
  match a with
  | ⟨0, _⟩ => show win0_2.index t (0 : Fin 2) * 256 + 1 * q.val = win0_5.index t (1 : Fin 2) * 256 + q.val; omega
  | ⟨1, _⟩ => show win0_2.index t (1 : Fin 2) * 2048 + 1 * k.val = k.val; omega

/-- Entry q of the gate piece is entry 256 j + q of the gate row. -/
theorem gateBlk_entry (c : Dev nD) (t : Fin cfg0.N) (q : Fin 256) :
    gateBlk m c t (ix2 (0 : Fin 1) q) = gateArr m c (ix2 (0 : Fin 1) (outCol t q)) := by
  obtain ⟨-, -, -, -, -, -, e30, e31, -⟩ := blockIndex t
  show V m c main_v1 (((cfg0.win 3).blk t).view.emb (ix2 (0 : Fin 1) q)) = V m c main_v1 (ix2 (0 : Fin 1) (outCol t q))
  refine congrArg (V m c main_v1) (funext fun a => Fin.ext ?_)
  match a with
  | ⟨0, _⟩ => show win0_3.index t (0 : Fin 2) * 1 + 1 * 0 = 0; omega
  | ⟨1, _⟩ => show win0_3.index t (1 : Fin 2) * 256 + 1 * q.val = win0_5.index t (1 : Fin 2) * 256 + q.val; omega

/-- Entry q of the bias piece is entry 256 j + q of the bias row. -/
theorem biasBlk_entry (c : Dev nD) (t : Fin cfg0.N) (q : Fin 256) :
    biasBlk m c t (ix2 (0 : Fin 1) q) = biasArr m c (ix2 (0 : Fin 1) (outCol t q)) := by
  obtain ⟨-, -, -, -, -, -, -, -, e40, e41, -⟩ := blockIndex t
  show V m c main_v2 (((cfg0.win 4).blk t).view.emb (ix2 (0 : Fin 1) q)) = V m c main_v2 (ix2 (0 : Fin 1) (outCol t q))
  refine congrArg (V m c main_v2) (funext fun a => Fin.ext ?_)
  match a with
  | ⟨0, _⟩ => show win0_4.index t (0 : Fin 2) * 1 + 1 * 0 = 0; omega
  | ⟨1, _⟩ => show win0_4.index t (1 : Fin 2) * 256 + 1 * q.val = win0_5.index t (1 : Fin 2) * 256 + q.val; omega

/-- Entry (p, q) of the first output's block at point t is entry (512 i + p, 256 j + q) of the array. -/
theorem gatedOut_emb (t : Fin cfg0.N) (p : Fin 512) (q : Fin 256) :
    ((cfg0.win 5).blk t).view.emb (ix2 p q) = ix2 (outRow t p) (outCol t q) := by
  funext a; apply Fin.ext
  match a with
  | ⟨0, _⟩ => show win0_5.index t (0 : Fin 2) * 512 + 1 * p.val = win0_5.index t (0 : Fin 2) * 512 + p.val; omega
  | ⟨1, _⟩ => show win0_5.index t (1 : Fin 2) * 256 + 1 * q.val = win0_5.index t (1 : Fin 2) * 256 + q.val; omega

/-- The same for the second output's block. -/
theorem scoreOut_emb (t : Fin cfg0.N) (p : Fin 512) (q : Fin 256) :
    ((cfg0.win 6).blk t).view.emb (ix2 p q) = ix2 (outRow t p) (outCol t q) := by
  obtain ⟨-, -, -, -, -, -, -, -, -, -, e60, e61, -⟩ := blockIndex t
  funext a; apply Fin.ext
  match a with
  | ⟨0, _⟩ => show win0_6.index t (0 : Fin 2) * 512 + 1 * p.val = win0_5.index t (0 : Fin 2) * 512 + p.val; omega
  | ⟨1, _⟩ => show win0_6.index t (1 : Fin 2) * 256 + 1 * q.val = win0_5.index t (1 : Fin 2) * 256 + q.val; omega

/-! ## What each point writes back -/

/-- The gate and the bias by output column, read off the one-row matrices the region finds. -/
abbrev gateOf (c : Dev nD) : Fin 2048 → EReal := fun n => gateArr m c (ix2 (0 : Fin 1) n)
abbrev biasOf (c : Dev nD) : Fin 2048 → EReal := fun n => biasArr m c (ix2 (0 : Fin 1) n)

/-- Point t writes back block t of the score array. -/
theorem scoreFlushed (c : Dev nD) (t : Fin cfg0.N) :
    (dats m 0 c).flushed 6 t
      = ((cfg0.win 6).blk t).view.read (Elt Ideal) (scoresOf (inputArr m c) (meanArr m c) (spreadArr m c)) := by
  show (cfg0.win 6).cut (grid0.coords t) ((dats m 0 c).after 6 t) = _
  rw [after0_6]
  funext j
  obtain ⟨p, q, rfl⟩ : ∃ (p : Fin 512) (q : Fin 256), j = ix2 p q := ⟨j 0, j 1, eq_ix2 j⟩
  show out0_6 (inputBlk m c t) (meanBlk m c t) (spreadBlk m c t) (gateBlk m c t) (biasBlk m c t) (ix2 p q)
    = scoresOf (inputArr m c) (meanArr m c) (spreadArr m c) (((cfg0.win 6).blk t).view.emb (ix2 p q))
  rw [scoreOut_emb, scoresOf_ix2]
  refine (scoreBlock_apply (inputBlk m c t) (meanBlk m c t) (spreadBlk m c t) (gateBlk m c t) (biasBlk m c t) p q).trans ?_
  rw [inputBlk_row, meanBlk_row, spreadBlk_row]

/-- Point t writes back block t of the gated array. -/
theorem gatedFlushed (c : Dev nD) (t : Fin cfg0.N) :
    (dats m 0 c).flushed 5 t
      = ((cfg0.win 5).blk t).view.read (Elt Ideal)
          (gatedOf (inputArr m c) (meanArr m c) (spreadArr m c) (gateOf m c) (biasOf m c)) := by
  show (cfg0.win 5).cut (grid0.coords t) ((dats m 0 c).after 5 t) = _
  rw [after0_5]
  funext j
  obtain ⟨p, q, rfl⟩ : ∃ (p : Fin 512) (q : Fin 256), j = ix2 p q := ⟨j 0, j 1, eq_ix2 j⟩
  show out0_5 (inputBlk m c t) (meanBlk m c t) (spreadBlk m c t) (gateBlk m c t) (biasBlk m c t) (ix2 p q)
    = gatedOf (inputArr m c) (meanArr m c) (spreadArr m c) (gateOf m c) (biasOf m c)
        (((cfg0.win 5).blk t).view.emb (ix2 p q))
  rw [gatedOut_emb, gatedOf_ix2]
  refine (gatedBlock_apply (inputBlk m c t) (meanBlk m c t) (spreadBlk m c t) (gateBlk m c t) (biasBlk m c t) p q).trans ?_
  rw [inputBlk_row, meanBlk_row, spreadBlk_row, gateBlk_entry, biasBlk_entry]

/-! ## The cover -/

/-- An index of an output array is in point t's block iff each coordinate is in the block's range on its axis. -/
theorem mem_gatedBlk (t : Fin cfg0.N) (i : S8192x2048.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v3_0).slice (win0_5.rect t)).set ↔ _
  rw [View.set_slice_whole, Rect.mem_set_unit]
  exact Iff.rfl

theorem mem_scoreBlk (t : Fin cfg0.N) (i : S8192x2048.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v3_1).slice (win0_6.rect t)).set ↔ _
  rw [View.set_slice_whole, Rect.mem_set_unit]
  exact Iff.rfl

/-- Every index of the first output is in the block of the point whose block index is (row / 512, column / 256). -/
theorem gatedCover (i : S8192x2048.Idx) :
    ∃ t : Fin cfg0.N, (cfg0.win 5).flush t = true ∧ i ∈ ((cfg0.win 5).blk t).view.set := by
  have hi0 : (i 0).val < 8192 := (i 0).isLt
  have hi1 : (i 1).val < 2048 := (i 1).isLt
  obtain ⟨t, ht⟩ := blockOnto ⟨(i 0).val / 512, by omega⟩ ⟨(i 1).val / 256, by omega⟩
  have q0 : win0_5.index t (0 : Fin 2) = (i 0).val / 512 := congrFun ht 0
  have q1 : win0_5.index t (1 : Fin 2) = (i 1).val / 256 := congrFun ht 1
  refine ⟨t, flush0_5 t, ?_⟩
  rw [mem_gatedBlk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 256 ≤ (i 1).val ∧ (i 1).val < win0_5.index t (1 : Fin 2) * 256 + 256; omega

/-- The same for the second output. -/
theorem scoreCover (i : S8192x2048.Idx) :
    ∃ t : Fin cfg0.N, (cfg0.win 6).flush t = true ∧ i ∈ ((cfg0.win 6).blk t).view.set := by
  have hi0 : (i 0).val < 8192 := (i 0).isLt
  have hi1 : (i 1).val < 2048 := (i 1).isLt
  obtain ⟨t, ht⟩ := blockOnto ⟨(i 0).val / 512, by omega⟩ ⟨(i 1).val / 256, by omega⟩
  have q0 : win0_5.index t (0 : Fin 2) = (i 0).val / 512 := congrFun ht 0
  have q1 : win0_5.index t (1 : Fin 2) = (i 1).val / 256 := congrFun ht 1
  obtain ⟨-, -, -, -, -, -, -, -, -, -, e60, e61, -⟩ := blockIndex t
  refine ⟨t, flush0_6 t, ?_⟩
  rw [mem_scoreBlk]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 256 ≤ (i 1).val ∧ (i 1).val < win0_6.index t (1 : Fin 2) * 256 + 256; omega

/-! ## The output arrays after the run -/

/-- The second output ends as the score array of the arrays the region finds. -/
theorem scoreFinal (c : Dev nD) :
    (dats m 0 c).arrAt 6 cfg0.N = scoresOf (inputArr m c) (meanArr m c) (spreadArr m c) :=
  (dats m 0 c).arrAt_eq_of_cover 6 _ (fun t _ => scoreFlushed m c t) (scoreCover)

/-- The first output ends as the gated array of the arrays the region finds. -/
theorem gatedFinal (c : Dev nD) :
    (dats m 0 c).arrAt 5 cfg0.N
      = gatedOf (inputArr m c) (meanArr m c) (spreadArr m c) (gateOf m c) (biasOf m c) :=
  (dats m 0 c).arrAt_eq_of_cover 5 _ (fun t _ => gatedFlushed m c t) (gatedCover)

end Cert.Gating.Arrays

end
-- ==== Proof.KernelValue.lean ====
/-
  The idealized kernel's run, with its three results named.

  Before the region the program flattens the input to 8192 × 2048 and views the gate and the bias as one-row matrices;
  after it, it views the gated output as 4 × 2048 × 2048. The views move no element, so the region finds the
  flattened input, and gate entry n and bias entry n at position (0, n) of their rows; the first result is the gated
  array seen through the final view, the second the score array, the third the gated array itself.
-/
import proofs.«151438_j26817775796689_1_alg».proof.Proof.Gen.KernelIdeal.Frame
import proofs.«151438_j26817775796689_1_alg».proof.Proof.Arrays
import Idealize.ShloMosaic.Lib.StableHlo.Run
import Idealize.ShloMosaic.Lib.ValueLayout

noncomputable section

namespace Cert.Gating.KernelRun

open Cert.KernelIdeal Cert.KernelIdeal.Gen Idealize.ShloMosaic Idealize.ShloMosaic.TcCoe Idealize.ShloMosaic.ValueIdx
open Idealize.SL.Sem Cert.Gating Cert.Gating.Arrays
open Idealize.ShloMosaic.Pipeline (Dat)

variable (m : (ℓ : Loc nD τ sig) → Buf (Elt Ideal) ℓ) (ρ : Dev nD → PrngReg)

/-! ## The arrays the region finds -/

/-- The flattened input. -/
abbrev flatInput (c : Dev nD) : Vec Ideal S8192x2048 .f32 :=
  shapeCast S8192x2048 (m ((c : Thread nD τ).loc main_arg0)) shapeCasts_S4x2048x2048_S8192x2048

theorem inputArr_eq (c : Dev nD) : inputArr m c = flatInput m c := by
  show StableHlo.after hostOps0 (fun b => m (c, b)) (Proc.devRef .tc main_v0) = _
  after_results
  rfl

theorem gateArr_eq (c : Dev nD) :
    gateArr m c = shapeCast S1x2048 (m ((c : Thread nD τ).loc main_arg3)) shapeCasts_S2048_S1x2048 := by
  show StableHlo.after hostOps0 (fun b => m (c, b)) (Proc.devRef .tc main_v1) = _
  after_results
  rfl

theorem biasArr_eq (c : Dev nD) :
    biasArr m c = shapeCast S1x2048 (m ((c : Thread nD τ).loc main_arg4)) shapeCasts_S2048_S1x2048 := by
  show StableHlo.after hostOps0 (fun b => m (c, b)) (Proc.devRef .tc main_v2) = _
  after_results
  rfl

/-- The gate by output column is the gate argument's entries. -/
theorem gateOf_eq (c : Dev nD) :
    gateOf m c = fun n => (m ((c : Thread nD τ).loc main_arg3) : Vec Ideal S2048 .f32) (ix1 n) := by
  funext n
  show gateArr m c (ix2 (0 : Fin 1) n) = _
  rw [gateArr_eq]
  exact shapeCast_a_1a_apply _ _ _ _

/-- The bias by output column is the bias argument's entries. -/
theorem biasOf_eq (c : Dev nD) :
    biasOf m c = fun n => (m ((c : Thread nD τ).loc main_arg4) : Vec Ideal S2048 .f32) (ix1 n) := by
  funext n
  show biasArr m c (ix2 (0 : Fin 1) n) = _
  rw [biasArr_eq]
  exact shapeCast_a_1a_apply _ _ _ _

/-! ## The results as functions of the arguments -/

/-- The score array of the arguments. -/
abbrev scoreResult (c : Dev nD) : Vec Ideal S8192x2048 .f32 :=
  scoresOf (flatInput m c) (m ((c : Thread nD τ).loc main_arg1)) (m ((c : Thread nD τ).loc main_arg2))

/-- The gated array of the arguments. -/
abbrev gatedResult (c : Dev nD) : Vec Ideal S8192x2048 .f32 :=
  gatedOf (flatInput m c) (m ((c : Thread nD τ).loc main_arg1)) (m ((c : Thread nD τ).loc main_arg2))
    (fun n => (m ((c : Thread nD τ).loc main_arg3) : Vec Ideal S2048 .f32) (ix1 n))
    (fun n => (m ((c : Thread nD τ).loc main_arg4) : Vec Ideal S2048 .f32) (ix1 n))

theorem scoreFinal_args (c : Dev nD) : (dats m 0 c).arrAt 6 cfg0.N = scoreResult m c := by
  rw [scoreFinal, inputArr_eq]
  show scoresOf (flatInput m c) (V m c main_arg1) (V m c main_arg2) = _
  rw [V_main_arg1, V_main_arg2]

theorem gatedFinal_args (c : Dev nD) : (dats m 0 c).arrAt 5 cfg0.N = gatedResult m c := by
  rw [gatedFinal, inputArr_eq, gateOf_eq, biasOf_eq]
  show gatedOf (flatInput m c) (V m c main_arg1) (V m c main_arg2) _ _ = _
  rw [V_main_arg1, V_main_arg2]

/-- After the region the gated output is viewed as 4 × 2048 × 2048. -/
theorem reshaped_args (c : Dev nD) :
    Pipeline.afterTail₀ cfgs (dats m) 0 (V0 m) [hostOps1] c main_v4
      = shapeCast S4x2048x2048 (gatedResult m c) shapeCasts_S8192x2048_S4x2048x2048 := by
  unfold Pipeline.afterTail₀
  show StableHlo.after hostOps1 _ (Proc.devRef .tc main_v4) = _
  after_results
  have e : Pipeline.withArrays (cfgs 0).spec c (V0 m c) (fun w => (dats m 0 c).arrAt w (cfgs 0).N)
      (Proc.devRef .tc main_v3_0) = gatedResult m c :=
    (Pipeline.withArrays_arr spec0 launch0.win.arr_inj c (V0 m c) (fun w => (dats m 0 c).arrAt w (cfgs 0).N) 5).trans
      (gatedFinal_args m c)
  funext i
  exact congrFun (congrArg (fun A => shapeCast S4x2048x2048 A shapeCasts_S8192x2048_S4x2048x2048) e) i

/-! ## The run -/

/-- Every weakly fair execution of the idealized kernel ends with its first result the gated array seen as
    4 × 2048 × 2048, its second the score array, its third the gated array, and its arguments unchanged. -/
theorem run : θ_run defs (onTc (τ := τ) (main (F := Ideal))) ⟨m, fun _ => 0, ρ⟩ fun r => ∀ c : Dev nD,
      r.2.mem ((c : Thread nD τ).loc main_v4)
        = shapeCast S4x2048x2048 (gatedResult m c) shapeCasts_S8192x2048_S4x2048x2048
      ∧ r.2.mem ((c : Thread nD τ).loc main_v3_1) = scoreResult m c
      ∧ r.2.mem ((c : Thread nD τ).loc main_v3_0) = gatedResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨
      ((h c).2 main_v4 (Pipeline.mem_restRefs_of main_v4 (by decide) (by decide))).trans (reshaped_args m c),
      ((h c).1 6).trans (scoreFinal_args m c),
      ((h c).1 5).trans (gatedFinal_args m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Gating.KernelRun

end
-- ==== Proof.RefSide.lean ====
/-
  The reference's two distinct results are the score array and the gated array of the specification.

  Every stage of the reference is read at an index (r, n): the two norms come out of a row sum (with initial value 0)
  under a square root, each broadcast first to a column or a row and then to the full matrix; the contraction of the
  two matrix products runs over the shared second axis, so entry (r, n) pairs row r of the input with row n of the
  weights.
-/
import proofs.«151438_j26817775796689_1_alg».proof.Proof.Gen.ReferenceIdeal.Read
import proofs.«151438_j26817775796689_1_alg».proof.Proof.Spec

noncomputable section

namespace Cert.Gating.Ref

open Cert.ReferenceIdeal Cert.ReferenceIdeal.Read Idealize.ShloMosaic Idealize.ShloMosaic.ValueIdx Cert.Gating
open scoped BigOperators

variable (x0 : (⟨S4x2048x2048, .f32⟩ : BufTy).Contents (Elt Ideal))
  (x1 x2 : (⟨S2048x2048, .f32⟩ : BufTy).Contents (Elt Ideal))
  (x3 x4 : (⟨S2048, .f32⟩ : BufTy).Contents (Elt Ideal))

/-- The reference's softplus stage, at an index. -/
theorem softplus_stage (i : S2048x2048.Idx) : val_main_v1 (F := Ideal) x2 i = softplus (x2 i) := by
  rw [val_main_v1_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply]
  simp only [Ideal.ofBits_def, Ideal.ofBits_zero_f32, Ideal.subf_def, Ideal.addf_def, Ideal.maximumf_def,
    Ideal.hostUnary_log1p_def, Ideal.hostUnary_exp_def, Ideal.hostNegf_def, Ideal.hostAbsf_def, Ideal.negf_def,
    Ideal.absf_def, Ideal.cmpf_def]
  exact softplus_neg _

/-- The reference's key stage, at an index. -/
theorem key_stage (i : S2048x2048.Idx) : val_main_v2 (F := Ideal) x1 x2 i = x1 i * softplus (x2 i) := by
  rw [val_main_v2_apply, softplus_stage]; rfl

/-! The composed index maps of the stages, at (r, n), by coordinates. -/

theorem lidx3 (r : Fin 8192) (n k : Fin 2048) : lidx_main_v3 (ix2 r n) k = ix2 r k :=
  funext fun a => Fin.ext (by match a with | ⟨0, _⟩ => rfl | ⟨1, _⟩ => rfl)
theorem ridx3 (r : Fin 8192) (n k : Fin 2048) : ridx_main_v3 (ix2 r n) k = ix2 n k :=
  funext fun a => Fin.ext (by match a with | ⟨0, _⟩ => rfl | ⟨1, _⟩ => rfl)
theorem lidx18 (r : Fin 8192) (n k : Fin 2048) : lidx_main_v18 (ix2 r n) k = ix2 r k :=
  funext fun a => Fin.ext (by match a with | ⟨0, _⟩ => rfl | ⟨1, _⟩ => rfl)
theorem ridx18 (r : Fin 8192) (n k : Fin 2048) : ridx_main_v18 (ix2 r n) k = ix2 n k :=
  funext fun a => Fin.ext (by match a with | ⟨0, _⟩ => rfl | ⟨1, _⟩ => rfl)
theorem xnorm_idx (r : Fin 8192) (n k : Fin 2048) :
    idx_main_call1_v1 (idx_main_v6 (idx_main_v8 (ix2 r n))) k = ix2 r k :=
  funext fun a => Fin.ext (by match a with | ⟨0, _⟩ => rfl | ⟨1, _⟩ => rfl)
theorem knorm_idx (r : Fin 8192) (n k : Fin 2048) :
    idx_main_call2_v1 (idx_main_v7 (idx_main_v9 (ix2 r n))) k = ix2 n k :=
  funext fun a => Fin.ext (by match a with | ⟨0, _⟩ => rfl | ⟨1, _⟩ => rfl)
theorem gate_idx (r : Fin 8192) (n : Fin 2048) : idx_main_v14 (idx_main_v15 (ix2 r n)) = ix1 n :=
  funext fun a => Fin.ext (by match a with | ⟨0, _⟩ => rfl)
theorem bias_idx (r : Fin 8192) (n : Fin 2048) : idx_main_v19 (idx_main_v20 (ix2 r n)) = ix1 n :=
  funext fun a => Fin.ext (by match a with | ⟨0, _⟩ => rfl)

/-- The reference's score stage is the score array of the flattened input and the two weight arrays. -/
theorem scores_stage : val_main_v13 (F := Ideal) x0 x1 x2 = scoresOf (val_main_v0 (F := Ideal) x0) x1 x2 := by
  funext i
  obtain ⟨r, n, rfl⟩ : ∃ (r : Fin 8192) (n : Fin 2048), i = ix2 r n := ⟨i 0, i 1, eq_ix2 i⟩
  rw [val_main_v13_apply, val_main_v3_apply, val_main_v12_apply, val_main_v10_apply, val_main_v8_apply,
    val_main_v6_apply, val_main_v4_apply, val_main_call1_v1_apply, val_main_v9_apply, val_main_v7_apply,
    val_main_v5_apply, val_main_call2_v1_apply, val_main_v11_apply, val_main_cst_apply,
    val_main_call1_cst_apply, val_main_call2_cst_apply]
  simp only [lidx3, ridx3, xnorm_idx, knorm_idx, val_main_call1_v0_apply, val_main_call2_v0_apply, key_stage,
    Ideal.ofBits_def, Ideal.ofBits_zero_f32, Ideal.mulf_def, Ideal.maximumf_def, Ideal.hostUnary_sqrt_def,
    Ideal.hostDivf_def, zero_add]
  rfl

/-- The reference's gated stage is the gated array, the gate and the bias read by output column. -/
theorem gated_stage : val_main_v22 (F := Ideal) x0 x1 x2 x3 x4
    = gatedOf (val_main_v0 (F := Ideal) x0) x1 x2 (fun n => x3 (ix1 n)) (fun n => x4 (ix1 n)) := by
  funext i
  obtain ⟨r, n, rfl⟩ : ∃ (r : Fin 8192) (n : Fin 2048), i = ix2 r n := ⟨i 0, i 1, eq_ix2 i⟩
  rw [val_main_v22_apply, val_main_v21_apply, val_main_v18_apply, val_main_v20_apply, val_main_v19_apply,
    val_main_v17_apply, val_main_v16_apply, scores_stage, scoresOf_ix2, val_main_v15_apply, val_main_v14_apply,
    val_main_call3_v0_apply, val_main_call3_cst_apply]
  simp only [lidx18, ridx18, gate_idx, bias_idx, Ideal.ofBits_def, Ideal.ofBits_zero_f32, Ideal.mulf_def,
    Ideal.addf_def, Ideal.subf_def, Ideal.maximumf_def]
  rfl

end Cert.Gating.Ref

end
-- ==== Proof.lean ====
/-
  A gated linear layer: cosine-similarity scores of input rows against key rows, a linear projection, and their
  product under a clipped gate.

  With X the input flattened to 8192 × 2048, MU and SG the 2048 × 2048 weight means and spreads, g the gate and b the
  bias (2048 entries each), both programs compute, for input row r and output column n,
      κ_n   = MU_n · softplus SG_n                      (entry by entry along the 2048-axis),
      score = (X_r · κ_n) / max (‖X_r‖ · ‖κ_n‖) ε,
      gated = (X_r · MU_n + b_n) · max (score − g_n) 0,
  and return the gated array viewed as 4 × 2048 × 2048, the score array, and the gated array.

  The kernel computes them block by block over a 16 × 8 grid (512 input rows against 256 weight rows at a point), the
  reference on whole arrays. On extended reals the two are the same sums of the same products: narrowing an operand
  to bf16 is the identity, a matrix product into a zero accumulator is the plain sum over the shared axis, a lane sum
  and a host sum are the same finite sum, and the test "d ≠ d" that guards softplus is false in both spellings. No
  law that needs finite entries is used, so the precondition is not opened.

  The frames of the two kernel programs are the generated ones; the reference's frame is its generated run with the
  results dropped. The idealization rewrote nothing, so the preservation claim is trivial.
-/
import proofs.«151438_j26817775796689_1_alg».proof.Defs
import proofs.«151438_j26817775796689_1_alg».proof.Proof.Gen.Kernel
import proofs.«151438_j26817775796689_1_alg».proof.Proof.Gen.Kernel.Skeleton
import proofs.«151438_j26817775796689_1_alg».proof.Proof.Gen.Kernel.Launch
import proofs.«151438_j26817775796689_1_alg».proof.Proof.Gen.Kernel.Points
import proofs.«151438_j26817775796689_1_alg».proof.Proof.Gen.Kernel.Frame
import proofs.«151438_j26817775796689_1_alg».proof.Proof.Gen.KernelIdeal
import proofs.«151438_j26817775796689_1_alg».proof.Proof.Gen.KernelIdeal.Skeleton
import proofs.«151438_j26817775796689_1_alg».proof.Proof.Gen.KernelIdeal.Launch
import proofs.«151438_j26817775796689_1_alg».proof.Proof.Gen.KernelIdeal.Points
import proofs.«151438_j26817775796689_1_alg».proof.Proof.Gen.KernelIdeal.Frame
import proofs.«151438_j26817775796689_1_alg».proof.Proof.Gen.ReferenceIdeal
import proofs.«151438_j26817775796689_1_alg».proof.Proof.Gen.Pre_finite_inputs
import proofs.«151438_j26817775796689_1_alg».proof.Proof.Gen.ReferenceIdeal.Run
import proofs.«151438_j26817775796689_1_alg».proof.Proof.Gen.ReferenceIdeal.Read
import proofs.«151438_j26817775796689_1_alg».proof.Proof.KernelValue
import proofs.«151438_j26817775796689_1_alg».proof.Proof.RefSide
import Idealize.ShloMosaic.Adequacy
import Idealize.ShloMosaic.Init

noncomputable section

namespace Cert.Proof

open Idealize.ShloMosaic Idealize.ShloMosaic.TcCoe Idealize.SL.Sem Cert.Gating

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, the three results dropped. -/
theorem frame_referenceIdeal : Cert.frame_ReferenceIdeal := fun m ρ _ =>
  (θ_run Cert.ReferenceIdeal.defs _ _).mono (fun _ h c => (h c).2.2.2)
    (Cert.ReferenceIdeal.Value.run (F := Ideal) m ρ)

/-- The idealization rewrote no operation. -/
theorem preserves : Cert.preserves_Kernel_KernelIdeal := trivial

/-- From memories that agree on the five arguments both idealized programs end with the same three results: the
    kernel's run names them as the gated and score arrays of its arguments, and the reference's stages are those
    arrays of its own arguments. -/
theorem algebraic : Cert.algebraic_KernelIdeal_ReferenceIdeal := by
  intro m ρ m' ρ' _ hagree
  refine ⟨fun c => shapeCast Cert.KernelIdeal.S4x2048x2048 (KernelRun.gatedResult m c)
      Cert.KernelIdeal.Facts₀.shapeCasts_S8192x2048_S4x2048x2048,
    fun c => KernelRun.scoreResult m c, fun c => KernelRun.gatedResult m c, KernelRun.run m ρ, ?_⟩
  refine (θ_run Cert.ReferenceIdeal.defs _ _).mono (fun _ h c => ⟨?_, ?_, ?_, (h c).2.2.2⟩)
    (Cert.ReferenceIdeal.Value.run (F := Ideal) m' ρ')
  · refine ((h c).1.trans (Cert.ReferenceIdeal.Read.val_main_v23_eq _ _ _ _ _)).trans ?_
    unfold Cert.ReferenceIdeal.Read.val_main_v23
    rw [Ref.gated_stage, (hagree c).1, (hagree c).2.1, (hagree c).2.2.1, (hagree c).2.2.2.1, (hagree c).2.2.2.2]
    rfl
  · refine ((h c).2.1.trans (Cert.ReferenceIdeal.Read.val_main_v13_eq _ _ _)).trans ?_
    rw [Ref.scores_stage, (hagree c).1, (hagree c).2.1, (hagree c).2.2.1]
    rfl
  · refine ((h c).2.2.1.trans (Cert.ReferenceIdeal.Read.val_main_v22_eq _ _ _ _ _)).trans ?_
    rw [Ref.gated_stage, (hagree c).1, (hagree c).2.1, (hagree c).2.2.1, (hagree c).2.2.2.1, (hagree c).2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
